-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) (main_arg8 : FVec F S128x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 33
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000, .f32⟩
  | .hbm, ⟨44, _⟩ => ⟨S100000x1, .f32⟩
  | .hbm, ⟨45, _⟩ => ⟨S_, .f32⟩
  | .hbm, ⟨46, _⟩ => ⟨S100000x1, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000, .f32⟩
  | .hbm, ⟨53, _⟩ => ⟨S100000x1, .f32⟩
  | .hbm, ⟨54, _⟩ => ⟨S_, .f32⟩
  | .hbm, ⟨55, _⟩ => ⟨S100000x1, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One row of the graph-isomorphism block, as a function on the extended reals.

  The block acts on each node's row independently once the neighbour sum is known. With `xr` the node's own
  features and `ar` the sum of its in-neighbours' features (both of width 128), the row of the result is

      h   = max ((xr + ar) · W₁ + b₁, 0) · W₂ + b₂                      (the two-layer perceptron)
      μ   = (Σₖ hₖ) / 128,   d = h − μ,   σ² = (Σₖ dₖ²) / 128           (layer statistics)
      out = d · (σ² + ε)^(-1/2) · γ + β  +  (xr · W_res + b_res)        (normalisation plus residual)

  Every sum is a finite sum over the 128 features, the quotient by 128 and the inverse square root are the
  extended reals' (no rounding), and the two literals 128 and ε are kept as the bit patterns both programs print, so
  they are never evaluated. The same function describes row `r` of the whole [100000, 128] array and row `p` of a
  [2000, 128] tile: the tiled program and the whole-array program are both this function, row by row.
-/
import Idealize.ShloMosaic.PureOps.Ideal
import Idealize.ShloMosaic.PureOps.Ideal.Laws
import Idealize.ShloMosaic.Lib.ValueIdx

noncomputable section

open scoped BigOperators

namespace GinRow

open Idealize.ShloMosaic Idealize.ShloMosaic.ValueIdx

/-- A row of 128 features. -/
abbrev Row := Fin 128 → EReal
/-- A 128 × 128 weight matrix, by (input feature, output feature). -/
abbrev Mat := Fin 128 → Fin 128 → EReal

/-- The pattern of the float 1.0 denotes the extended real 1: sign 0, exponent 127, fraction 0. -/
theorem one_bits : Ideal.ofBits .f32 0x3F800000#32 = 1 := by
  simp [Ideal.ofBits, Ideal.ieee]
  rw [← EReal.coe_mul, ← EReal.coe_one]
  congr 1
  norm_num

/-- The divisor both programs print for the mean over the 128 features (the float 128.0). -/
def width : EReal := Ideal.ofBits .f32 0x43000000#32
/-- The variance offset both programs print (the float nearest 1e-5). -/
def eps : EReal := Ideal.ofBits .f32 0x3727C5AC#32

/-- A linear layer at output feature `j`: `(v · W)ⱼ + bⱼ`. -/
def affine (v : Row) (W : Mat) (b : Row) (j : Fin 128) : EReal := (∑ k : Fin 128, v k * W k j) + b j

/-- The perceptron's output row: linear, rectifier, linear, applied to own features plus neighbour sum. -/
def hidden (xr ar : Row) (W₁ : Mat) (b₁ : Row) (W₂ : Mat) (b₂ : Row) : Row :=
  affine (fun k => max (affine (fun k' => xr k' + ar k') W₁ b₁ k) 0) W₂ b₂

/-- The mean of a row. -/
def mean (h : Row) : EReal := Ideal.div (∑ k : Fin 128, h k) width
/-- A row minus its mean. -/
def centred (h : Row) (j : Fin 128) : EReal := h j - mean h
/-- The reciprocal standard deviation of a row, offset by `eps`. -/
def rstd (h : Row) : EReal := Ideal.rsqrt (Ideal.div (∑ k : Fin 128, centred h k * centred h k) width + eps)

/-- The normalised row, scaled and shifted. -/
def normed (h g be : Row) (j : Fin 128) : EReal := centred h j * rstd h * g j + be j

/-- One row of the block's result. -/
def rowOut (xr ar : Row) (W₁ : Mat) (b₁ : Row) (W₂ : Mat) (b₂ g be : Row) (Wr : Mat) (br : Row) (j : Fin 128) : EReal :=
  normed (hidden xr ar W₁ b₁ W₂ b₂) g be j + affine xr Wr br j

/-- The whole result array: row `i 0` of the inputs through `rowOut`, read at feature `i 1`. The neighbour sums
    `agg` are an argument: both programs compute them by the same gather and scatter-add before anything else. -/
def outArr (x agg : (⟨2, ![100000, 128]⟩ : Shape).Idx → EReal) (W₁ : (⟨2, ![128, 128]⟩ : Shape).Idx → EReal)
    (b₁ : (⟨1, ![128]⟩ : Shape).Idx → EReal) (W₂ : (⟨2, ![128, 128]⟩ : Shape).Idx → EReal)
    (b₂ g be : (⟨1, ![128]⟩ : Shape).Idx → EReal) (Wr : (⟨2, ![128, 128]⟩ : Shape).Idx → EReal)
    (br : (⟨1, ![128]⟩ : Shape).Idx → EReal) : (⟨2, ![100000, 128]⟩ : Shape).Idx → EReal :=
  fun i => rowOut (fun k => x (ix2 (i 0) k)) (fun k => agg (ix2 (i 0) k)) (fun k j => W₁ (ix2 k j)) (fun j => b₁ (ix1 j))
    (fun k j => W₂ (ix2 k j)) (fun j => b₂ (ix1 j)) (fun j => g (ix1 j)) (fun j => be (ix1 j)) (fun k j => Wr (ix2 k j))
    (fun j => br (ix1 j)) (i 1)

/-- `outArr` at an index given by coordinates. -/
theorem outArr_ix2 (x agg : (⟨2, ![100000, 128]⟩ : Shape).Idx → EReal) (W₁ : (⟨2, ![128, 128]⟩ : Shape).Idx → EReal)
    (b₁ : (⟨1, ![128]⟩ : Shape).Idx → EReal) (W₂ : (⟨2, ![128, 128]⟩ : Shape).Idx → EReal)
    (b₂ g be : (⟨1, ![128]⟩ : Shape).Idx → EReal) (Wr : (⟨2, ![128, 128]⟩ : Shape).Idx → EReal)
    (br : (⟨1, ![128]⟩ : Shape).Idx → EReal) (r : Fin 100000) (j : Fin 128) :
    outArr x agg W₁ b₁ W₂ b₂ g be Wr br (ix2 r j)
      = rowOut (fun k => x (ix2 r k)) (fun k => agg (ix2 r k)) (fun k j => W₁ (ix2 k j)) (fun j => b₁ (ix1 j))
          (fun k j => W₂ (ix2 k j)) (fun j => b₂ (ix1 j)) (fun j => g (ix1 j)) (fun j => be (ix1 j)) (fun k j => Wr (ix2 k j))
          (fun j => br (ix1 j)) j := rfl

end GinRow

end
-- ==== Proof.RefRow.lean ====
/-
  The whole-array program, read row by row.

  Each stage of the whole-array program is an elementwise operation, a contraction over the 128 features, a sum over
  the 128 features, or a broadcast along an axis; so its value at index (r, j) depends only on row `r` of the node
  features, row `r` of the neighbour sums and the weights. Stage by stage this module identifies those values with
  the row function `GinRow.rowOut`: the first linear layer, the rectifier, the second linear layer, the mean, the centred
  row, the variance, the reciprocal standard deviation, the scaled and shifted row, the residual linear layer, and last
  their sum. Two small facts enter: multiplying by the literal 1.0 is the identity on the extended reals, and a sum
  started from the literal 0.0 is the sum.
-/
import proofs.«133539_j6476810682403_1_alg».proof.Proof.Gen.ReferenceIdeal.Read
import proofs.«133539_j6476810682403_1_alg».proof.Proof.RowSpec

noncomputable section

open scoped BigOperators

namespace Cert.ReferenceIdeal.RowRead

open Cert.ReferenceIdeal Cert.ReferenceIdeal.Gen Cert.ReferenceIdeal.Read Idealize.ShloMosaic Idealize.ShloMosaic.ValueIdx GinRow

variable (x0 : (⟨S100000x128, .f32⟩ : BufTy).Contents (Elt Ideal)) (x1 : (⟨S2x1600000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 x6 x7 : (⟨S128, .f32⟩ : BufTy).Contents (Elt Ideal))
  (x8 : (⟨S128x128, .f32⟩ : BufTy).Contents (Elt Ideal)) (x9 : (⟨S128, .f32⟩ : BufTy).Contents (Elt Ideal))

/-- Row `r` of the node features. -/
abbrev xrow (r : Fin 100000) : Row := fun k => x0 (ix2 r k)
/-- Row `r` of the neighbour sums. -/
abbrev arow (r : Fin 100000) : Row := fun k => val_main_v13 (F := Ideal) x0 x1 (ix2 r k)
/-- A weight array by coordinates. -/
abbrev mat (W : (⟨S128x128, .f32⟩ : BufTy).Contents (Elt Ideal)) : Mat := fun k j => W (ix2 k j)
/-- A bias or scale array by its coordinate. -/
abbrev vec (b : (⟨S128, .f32⟩ : BufTy).Contents (Elt Ideal)) : Row := fun j => b (ix1 j)
/-- Row `r` of the perceptron's output. -/
abbrev hrow (r : Fin 100000) : Row := hidden (xrow x0 r) (arow x0 x1 r) (mat x2) (vec x3) (mat x4) (vec x5)

/-! ## The index functions of the contractions, sums and broadcasts, at coordinates -/

theorem lidx17 (r : Fin 100000) (j k : Fin 128) : lidx_main_v17 (ix2 r j) k = ix2 r k :=
  funext fun a => Fin.ext (by match a with | ⟨0, _⟩ => rfl | ⟨1, _⟩ => rfl)
theorem ridx17 (r : Fin 100000) (j k : Fin 128) : ridx_main_v17 (ix2 r j) k = ix2 k j :=
  funext fun a => Fin.ext (by match a with | ⟨0, _⟩ => rfl | ⟨1, _⟩ => rfl)
theorem lidx22 (r : Fin 100000) (j k : Fin 128) : lidx_main_v22 (ix2 r j) k = ix2 r k :=
  funext fun a => Fin.ext (by match a with | ⟨0, _⟩ => rfl | ⟨1, _⟩ => rfl)
theorem ridx22 (r : Fin 100000) (j k : Fin 128) : ridx_main_v22 (ix2 r j) k = ix2 k j :=
  funext fun a => Fin.ext (by match a with | ⟨0, _⟩ => rfl | ⟨1, _⟩ => rfl)
theorem lidx50 (r : Fin 100000) (j k : Fin 128) : lidx_main_v50 (ix2 r j) k = ix2 r k :=
  funext fun a => Fin.ext (by match a with | ⟨0, _⟩ => rfl | ⟨1, _⟩ => rfl)
theorem ridx50 (r : Fin 100000) (j k : Fin 128) : ridx_main_v50 (ix2 r j) k = ix2 k j :=
  funext fun a => Fin.ext (by match a with | ⟨0, _⟩ => rfl | ⟨1, _⟩ => rfl)
theorem bias19 (r : Fin 100000) (j : Fin 128) : idx_main_v18 (idx_main_v19 (ix2 r j)) = ix1 j :=
  funext fun a => Fin.ext (by match a with | ⟨0, _⟩ => rfl)
theorem bias24 (r : Fin 100000) (j : Fin 128) : idx_main_v23 (idx_main_v24 (ix2 r j)) = ix1 j :=
  funext fun a => Fin.ext (by match a with | ⟨0, _⟩ => rfl)
theorem bias45 (r : Fin 100000) (j : Fin 128) : idx_main_v44 (idx_main_v45 (ix2 r j)) = ix1 j :=
  funext fun a => Fin.ext (by match a with | ⟨0, _⟩ => rfl)
theorem bias48 (r : Fin 100000) (j : Fin 128) : idx_main_v47 (idx_main_v48 (ix2 r j)) = ix1 j :=
  funext fun a => Fin.ext (by match a with | ⟨0, _⟩ => rfl)
theorem bias52 (r : Fin 100000) (j : Fin 128) : idx_main_v51 (idx_main_v52 (ix2 r j)) = ix1 j :=
  funext fun a => Fin.ext (by match a with | ⟨0, _⟩ => rfl)
theorem col27 (r : Fin 100000) (u : Fin 1) : idx_main_v27 (ix2 r u) = ix1 r :=
  funext fun a => Fin.ext (by match a with | ⟨0, _⟩ => rfl)
theorem col34 (r : Fin 100000) (u : Fin 1) : idx_main_v34 (ix2 r u) = ix1 r :=
  funext fun a => Fin.ext (by match a with | ⟨0, _⟩ => rfl)
theorem sum26 (r : Fin 100000) (k : Fin 128) : idx_main_v26 (ix1 r) k = ix2 r k :=
  funext fun a => Fin.ext (by match a with | ⟨0, _⟩ => rfl | ⟨1, _⟩ => rfl)
theorem sum33 (r : Fin 100000) (k : Fin 128) : idx_main_v33 (ix1 r) k = ix2 r k :=
  funext fun a => Fin.ext (by match a with | ⟨0, _⟩ => rfl | ⟨1, _⟩ => rfl)
theorem lane30 (r : Fin 100000) (j : Fin 128) : idx_main_v30 (ix2 r j) = ix2 r (0 : Fin 1) :=
  funext fun a => Fin.ext (by match a with | ⟨0, _⟩ => rfl | ⟨1, _⟩ => rfl)
theorem lane37 (r : Fin 100000) (j : Fin 128) : idx_main_v37 (ix2 r j) = ix2 r (0 : Fin 1) :=
  funext fun a => Fin.ext (by match a with | ⟨0, _⟩ => rfl | ⟨1, _⟩ => rfl)
theorem lane42 (r : Fin 100000) (j : Fin 128) : idx_main_v42 (ix2 r j) = ix2 r (0 : Fin 1) :=
  funext fun a => Fin.ext (by match a with | ⟨0, _⟩ => rfl | ⟨1, _⟩ => rfl)

/-! ## The stages -/

/-- The perceptron's input: the literal 1.0 times the node's features, plus its neighbour sum. -/
theorem sum_in (r : Fin 100000) (k : Fin 128) :
    val_main_v16 (F := Ideal) x0 x1 (ix2 r k) = x0 (ix2 r k) + val_main_v13 (F := Ideal) x0 x1 (ix2 r k) := by
  rw [val_main_v16_apply, val_main_v15_apply, val_main_v14_apply, val_main_cst_1_apply]
  simp only [Ideal.addf_def, Ideal.mulf_def, Ideal.ofBits_def, one_bits, one_mul]

/-- The first linear layer. -/
theorem lin1 (r : Fin 100000) (j : Fin 128) :
    val_main_v20 (F := Ideal) x0 x1 x2 x3 (ix2 r j)
      = affine (fun k => xrow x0 r k + arow x0 x1 r k) (mat x2) (vec x3) j := by
  rw [val_main_v20_apply, val_main_v17_apply, val_main_v19_apply, val_main_v18_apply]
  simp only [lidx17, ridx17, bias19, sum_in, Ideal.addf_def]
  rfl

/-- The rectifier: the maximum with the literal 0.0. -/
theorem relu1 (r : Fin 100000) (j : Fin 128) :
    val_main_v21 (F := Ideal) x0 x1 x2 x3 (ix2 r j)
      = max (affine (fun k => xrow x0 r k + arow x0 x1 r k) (mat x2) (vec x3) j) 0 := by
  rw [val_main_v21_apply, val_main_call0_v0_apply, val_main_call0_cst_apply, lin1]
  simp only [Ideal.maximumf_def, Ideal.ofBits_def, Ideal.ofBits_zero_f32]

/-- The second linear layer: the perceptron's output row. -/
theorem hid (r : Fin 100000) (j : Fin 128) :
    val_main_v25 (F := Ideal) x0 x1 x2 x3 x4 x5 (ix2 r j) = hrow x0 x1 x2 x3 x4 x5 r j := by
  rw [val_main_v25_apply, val_main_v22_apply, val_main_v24_apply, val_main_v23_apply]
  simp only [lidx22, ridx22, bias24, relu1, Ideal.addf_def]
  rfl

/-- The mean over the features, kept as a column. -/
theorem mean_eq (r : Fin 100000) (u : Fin 1) :
    val_main_v29 (F := Ideal) x0 x1 x2 x3 x4 x5 (ix2 r u) = mean (hrow x0 x1 x2 x3 x4 x5 r) := by
  rw [val_main_v29_apply, val_main_v27_apply, val_main_v26_apply, val_main_v28_apply, val_main_cst_3_apply, val_main_cst_2_apply]
  simp only [col27, sum26, hid, Ideal.hostDivf_def, Ideal.ofBits_def, Ideal.ofBits_zero_f32, zero_add]
  rfl

/-- The centred row, as the variance reads it … -/
theorem cent31 (r : Fin 100000) (j : Fin 128) :
    val_main_v31 (F := Ideal) x0 x1 x2 x3 x4 x5 (ix2 r j) = centred (hrow x0 x1 x2 x3 x4 x5 r) j := by
  rw [val_main_v31_apply, val_main_v30_apply]
  simp only [lane30, mean_eq, hid, Ideal.subf_def]
  rfl

/-- … and as the normalisation reads it (the program computes it twice). -/
theorem cent38 (r : Fin 100000) (j : Fin 128) :
    val_main_v38 (F := Ideal) x0 x1 x2 x3 x4 x5 (ix2 r j) = centred (hrow x0 x1 x2 x3 x4 x5 r) j := by
  rw [val_main_v38_apply, val_main_v37_apply]
  simp only [lane37, mean_eq, hid, Ideal.subf_def]
  rfl

/-- The reciprocal standard deviation, kept as a column. -/
theorem rstd_eq (r : Fin 100000) (u : Fin 1) :
    val_main_v41 (F := Ideal) x0 x1 x2 x3 x4 x5 (ix2 r u) = rstd (hrow x0 x1 x2 x3 x4 x5 r) := by
  rw [val_main_v41_apply, val_main_v40_apply, val_main_v36_apply, val_main_v34_apply, val_main_v33_apply, val_main_v35_apply,
    val_main_cst_5_apply, val_main_cst_4_apply, val_main_v39_apply, val_main_cst_6_apply]
  simp only [col34, sum33, val_main_v32_apply, cent31, Ideal.hostDivf_def, Ideal.hostUnary_rsqrt_def, Ideal.addf_def,
    Ideal.mulf_def, Ideal.ofBits_def, Ideal.ofBits_zero_f32, zero_add]
  rfl

/-- The normalised row, scaled and shifted. -/
theorem normed_eq (r : Fin 100000) (j : Fin 128) :
    val_main_v49 (F := Ideal) x0 x1 x2 x3 x4 x5 x6 x7 (ix2 r j) = normed (hrow x0 x1 x2 x3 x4 x5 r) (vec x6) (vec x7) j := by
  rw [val_main_v49_apply, val_main_v46_apply, val_main_v43_apply, val_main_v42_apply, val_main_v45_apply, val_main_v44_apply,
    val_main_v48_apply, val_main_v47_apply]
  simp only [lane42, bias45, bias48, cent38, rstd_eq, Ideal.addf_def, Ideal.mulf_def]
  rfl

/-- The residual linear layer of the node's own features. -/
theorem res_eq (r : Fin 100000) (j : Fin 128) :
    val_main_v53 (F := Ideal) x0 x8 x9 (ix2 r j) = affine (xrow x0 r) (mat x8) (vec x9) j := by
  rw [val_main_v53_apply, val_main_v50_apply, val_main_v52_apply, val_main_v51_apply]
  simp only [lidx50, ridx50, bias52, Ideal.addf_def]
  rfl

/-- The whole-array program's result is `outArr` of its arguments and of the neighbour sums it computed. -/
theorem out_eq :
    val_main_v54 (F := Ideal) x0 x1 x2 x3 x4 x5 x6 x7 x8 x9
      = outArr x0 (val_main_v13 (F := Ideal) x0 x1) x2 x3 x4 x5 x6 x7 x8 x9 := by
  funext i
  obtain ⟨r, j, rfl⟩ : ∃ (r : Fin 100000) (j : Fin 128), i = ix2 r j := ⟨i 0, i 1, eq_ix2 i⟩
  rw [val_main_v54_apply, normed_eq, res_eq, outArr_ix2]
  rfl

end Cert.ReferenceIdeal.RowRead

end
-- ==== Proof.TileRow.lean ====
/-
  The tiled program's body, read row by row.

  The body works on a tile of 2000 consecutive rows. Each of its operations is elementwise, a matrix product that
  contracts the 128 features (onto a zero accumulator, so it is the plain sum of products), a sum along the 128
  lanes, or a broadcast of a [1, 128] row or of a [2000, 1] column; a change of float format is the identity on the
  extended reals. So the stored value at (p, q) depends only on row `p` of the two row tiles and on the weights, and it
  is `GinRow.rowOut` of those. This module reads the body's named stages at an index, one at a time: the perceptron's
  output, the column of means, the centred tile, the broadcast column of reciprocal standard deviations, and the stored
  value.
-/
import proofs.«133539_j6476810682403_1_alg».proof.Proof.Gen.KernelIdeal.Skeleton
import proofs.«133539_j6476810682403_1_alg».proof.Proof.RowSpec
import Idealize.ShloMosaic.Lib.Pipeline.Value
import Idealize.ShloMosaic.Lib.ValueLayout
import Idealize.ShloMosaic.PureOps.Ideal.Laws

noncomputable section

open scoped BigOperators

namespace Cert.KernelIdeal.TileRow

open Cert.KernelIdeal Cert.KernelIdeal.Gen Idealize.ShloMosaic Idealize.ShloMosaic.ValueIdx GinRow

/-! ## The layout operations of the body at coordinates -/

/-- A [1, 128] row, cast to its own shape and broadcast down the tile, reads its entry `q` on every row. -/
theorem row_bcast (b : Vec Ideal S1x128 .f32) (p : Fin 2000) (q : Fin 128) :
    broadcastTo S2000x128 (shapeCast S1x128 b shapeCasts_S1x128_S1x128) broadcasts_S1x128_S2000x128 (ix2 p q)
      = b (ix2 (0 : Fin 1) q) := by
  rw [shapeCast_self]
  exact broadcastTo_1b_ab_apply b broadcasts_S1x128_S2000x128 p q

/-- A vector of 2000 entries cast to a [2000, 1] column reads entry `p` at (p, ·). -/
theorem col_cast (v : FVec Ideal S2000 .f32) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    omega)

/-- A [2000, 1] column broadcast across the 128 lanes reads its entry `p` everywhere on row `p`. -/
theorem col_bcast (v : FVec Ideal S2000x1 .f32) (p : Fin 2000) (q : Fin 128) :
    broadcastTo S2000x128 v broadcasts_S2000x1_S2000x128 (ix2 p q) = v (ix2 p (0 : Fin 1)) := by
  refine broadcastTo_apply v broadcasts_S2000x1_S2000x128 (ix2 p q) (ix2 p (0 : Fin 1)) fun ax => ?_
  match ax with
  | ⟨0, _⟩ => show p.val = if (2000 : Nat) = 1 then 0 else p.val; rw [if_neg (by decide)]
  | ⟨1, _⟩ => show (0 : Nat) = if (1 : Nat) = 1 then 0 else q.val; rw [if_pos rfl]

/-- The sum along the lanes of a tile, at row `p`, is the sum over the 128 features of that row. -/
theorem lane_sum (v : FVec Ideal S2000x128 .f32) (p : Fin 2000) :
    multiReduction .add [1] S2000 v 0x00000000#32 reduces_S2000x128_S2000 (.inl rfl) rfl (ix1 p)
      = ∑ k : Fin 128, v (ix2 p k) := by
  refine (Ideal.multiReduction_add_single v 0x00000000#32 reduces_S2000x128_S2000 (.inl rfl) rfl (ix1 p)).trans ?_
  refine Finset.sum_congr rfl fun k _ => congrArg v (funext fun a => Fin.ext ?_)
  match a with
  | ⟨0, _⟩ => rfl
  | ⟨1, _⟩ => rfl

/-! ## The matrix product at an index -/

theorem lhs_ax0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_ax1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_ax0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_ax1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A tile times a weight matrix onto the zero accumulator: entry (p, q) is the sum over the contracted feature. -/
theorem mm_apply {φ₁ φ₂ : FTy} (l : FVec Ideal S2000x128 φ₁) (w : FVec Ideal S128x128 φ₂) (p : Fin 2000) (q : Fin 128) :
    matmul dot_S2000x128_S128x128_S2000x128_1_0_0_1_n_n none l w (constant S2000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- A linear layer of the body: both operands narrowed (the identity here), multiplied onto zero, the bias row added. -/
theorem lin_tile (l : FVec Ideal S2000x128 .f32) (w : Vec Ideal S128x128 .f32) (b : Vec Ideal S1x128 .f32) (p : Fin 2000) (q : Fin 128) :
    addf (matmul dot_S2000x128_S128x128_S2000x128_1_0_0_1_n_n none (truncf .bf16 l bitsLt_bf16_f32) (truncf .bf16 w bitsLt_bf16_f32)
        (constant S2000x128 .f32 0x00000000#32))
      (broadcastTo S2000x128 (shapeCast S1x128 b shapeCasts_S1x128_S1x128) broadcasts_S1x128_S2000x128) (ix2 p q)
      = affine (fun k => l (ix2 p k)) (fun k j => w (ix2 k j)) (fun j => b (ix2 (0 : Fin 1) j)) q := by
  rw [addf_apply, mm_apply, row_bcast]
  rfl

/-! ## The body's stages -/

variable (x0 x1 : Vec Ideal S2000x128 .f32) (x2 : Vec Ideal S128x128 .f32) (x3 : Vec Ideal S1x128 .f32)
  (x4 : Vec Ideal S128x128 .f32) (x5 x6 x7 : Vec Ideal S1x128 .f32) (x8 : Vec Ideal S128x128 .f32) (x9 : Vec Ideal S1x128 .f32)

/-- Row `p` of a row tile. -/
abbrev trow (x : Vec Ideal S2000x128 .f32) (p : Fin 2000) : Row := fun k => x (ix2 p k)
/-- A weight tile by coordinates. -/
abbrev tmat (W : Vec Ideal S128x128 .f32) : Mat := fun k j => W (ix2 k j)
/-- A [1, 128] tile by its lane. -/
abbrev tvec (b : Vec Ideal S1x128 .f32) : Row := fun j => b (ix2 (0 : Fin 1) j)
/-- Row `p` of the perceptron's output on the tile. -/
abbrev thid (p : Fin 2000) : Row := hidden (trow x0 p) (trow x1 p) (tmat x2) (tvec x3) (tmat x4) (tvec x5)

/-- The perceptron's output. -/
theorem hid_tile (p : Fin 2000) (q : Fin 128) :
    k0_pay2 (F := Ideal) x0 x1 x2 x3 x4 x5 (ix2 p q) = thid x0 x1 x2 x3 x4 x5 p q := by
  unfold k0_pay2
  refine (lin_tile _ x4 x5 p q).trans ?_
  refine congrArg (fun v : Row => affine v (tmat x4) (tvec x5) q) (funext fun k => ?_)
  rw [maximumf_apply, lin_tile, broadcast_apply]
  simp only [addf_apply, shapeCast_self]
  show max _ (Ideal.ofBits .f32 0x00000000#32) = _
  rw [Ideal.ofBits_zero_f32]

/-- The column of means. -/
theorem mean_tile (p : Fin 2000) (u : Fin 1) :
    k0_pay3 (F := Ideal) x0 x1 x2 x3 x4 x5 (ix2 p u) = mean (thid x0 x1 x2 x3 x4 x5 p) := by
  unfold k0_pay3
  rw [divf_apply, col_cast, lane_sum, broadcast_apply]
  simp only [hid_tile]
  rfl

/-- The centred tile. -/
theorem cent_tile (p : Fin 2000) (q : Fin 128) :
    k0_pay4 (F := Ideal) x0 x1 x2 x3 x4 x5 (ix2 p q) = centred (thid x0 x1 x2 x3 x4 x5 p) q := by
  unfold k0_pay4
  rw [subf_apply, col_bcast, hid_tile, mean_tile]
  rfl

/-- The reciprocal standard deviations, broadcast across the lanes. -/
theorem rstd_tile (p : Fin 2000) (q : Fin 128) :
    k0_pay5 (F := Ideal) x0 x1 x2 x3 x4 x5 (ix2 p q) = rstd (thid x0 x1 x2 x3 x4 x5 p) := by
  unfold k0_pay5
  rw [col_bcast]
  show Ideal.rsqrt (_ + _) = _
  rw [divf_apply, col_cast, lane_sum, broadcast_apply, broadcast_apply]
  simp only [mulf_apply, subf_apply, col_bcast, hid_tile, mean_tile]
  rfl

/-- The stored value: normalisation plus residual, at (p, q), from the centred tile and the broadcast column. -/
theorem store_tile (p : Fin 2000) (q : Fin 128) :
    k0_pay1 (F := Ideal) x0 (k0_pay4 x0 x1 x2 x3 x4 x5) (k0_pay5 x0 x1 x2 x3 x4 x5) x6 x7 x8 x9 (ix2 p q)
      = rowOut (trow x0 p) (trow x1 p) (tmat x2) (tvec x3) (tmat x4) (tvec x5) (tvec x6) (tvec x7) (tmat x8) (tvec x9) q := by
  unfold k0_pay1
  rw [addf_apply, lin_tile, addf_apply, row_bcast, mulf_apply, row_bcast, mulf_apply, cent_tile, rstd_tile]
  rfl

end Cert.KernelIdeal.TileRow

end
-- ==== Proof.HostFound.lean ====
/-
  The arrays the tiled program's region finds, and the whole output as one function of them.

  Before its region the tiled program computes, from the arguments, the neighbour sums (a gather of source rows, then a
  scatter-add onto target rows) and reshapes the five biases and scales from [128] to [1, 128]; the other arrays the region
  reads are arguments, untouched. The neighbour sums are the very term the whole-array program begins with — the same
  operations on the same arguments — so they are named by that term and never opened. `found` is the row function applied
  to row `i 0` of the arrays the region finds, read at feature `i 1`; in terms of the arguments it is `GinRow.outArr`.
-/
import proofs.«133539_j6476810682403_1_alg».proof.Proof.Gen.KernelIdeal.Frame
import proofs.«133539_j6476810682403_1_alg».proof.Proof.Gen.ReferenceIdeal.Read
import proofs.«133539_j6476810682403_1_alg».proof.Proof.RowSpec
import Idealize.ShloMosaic.Lib.StableHlo.Run
import Idealize.ShloMosaic.Lib.ValueLayout

noncomputable section

open scoped BigOperators

namespace Cert.KernelIdeal.WholeArray

open Cert.KernelIdeal Cert.KernelIdeal.Gen Idealize.ShloMosaic Idealize.ShloMosaic.TcCoe
  Idealize.SL.Sem Idealize.ShloMosaic.ValueIdx GinRow
open Idealize.ShloMosaic.Pipeline (Dat)

variable (m : (ℓ : Loc nD τ sig) → Buf (Elt Ideal) ℓ) (ρ : Dev nD → PrngReg)

/-! ## The arrays as the region finds them -/

/-- The neighbour sums the region finds are the gather and scatter-add of the arguments, as the whole-array program
    spells them (the two programs print the same operations; the terms agree by unfolding names only). -/
theorem agg_found (c : Dev nD) :
    (V m c main_v13 : S100000x128.Idx → EReal) =
      Cert.ReferenceIdeal.Read.val_main_v13 (F := Ideal) (m ((c : Thread nD τ).loc main_arg0)) (m ((c : Thread nD τ).loc main_arg1)) := by
  dsimp only [Gen.V, Gen.hostOps0]
  after_results
  rfl

/-- The five [1, 128] arrays the region finds are the [128] arguments reshaped. -/
theorem b1_found (c : Dev nD) :
    (V m c main_v14 : S1x128.Idx → EReal) = shapeCast S1x128 (m ((c : Thread nD τ).loc main_arg3)) shapeCasts_S128_S1x128 := by
  dsimp only [Gen.V, Gen.hostOps0]; after_results; rfl
theorem b2_found (c : Dev nD) :
    (V m c main_v15 : S1x128.Idx → EReal) = shapeCast S1x128 (m ((c : Thread nD τ).loc main_arg5)) shapeCasts_S128_S1x128 := by
  dsimp only [Gen.V, Gen.hostOps0]; after_results; rfl
theorem gamma_found (c : Dev nD) :
    (V m c main_v16 : S1x128.Idx → EReal) = shapeCast S1x128 (m ((c : Thread nD τ).loc main_arg6)) shapeCasts_S128_S1x128 := by
  dsimp only [Gen.V, Gen.hostOps0]; after_results; rfl
theorem beta_found (c : Dev nD) :
    (V m c main_v17 : S1x128.Idx → EReal) = shapeCast S1x128 (m ((c : Thread nD τ).loc main_arg7)) shapeCasts_S128_S1x128 := by
  dsimp only [Gen.V, Gen.hostOps0]; after_results; rfl
theorem bres_found (c : Dev nD) :
    (V m c main_v18 : S1x128.Idx → EReal) = shapeCast S1x128 (m ((c : Thread nD τ).loc main_arg9)) shapeCasts_S128_S1x128 := by
  dsimp only [Gen.V, Gen.hostOps0]; after_results; rfl

/-- The output array as one function of the arrays the region finds: row `i 0` through the row function, at `i 1`. -/
def found (c : Dev nD) : S100000x128.Idx → EReal := fun i =>
  rowOut (fun k => V m c main_arg0 (ix2 (i 0) k)) (fun k => V m c main_v13 (ix2 (i 0) k))
    (fun k j => V m c main_arg2 (ix2 k j)) (fun j => V m c main_v14 (ix2 (0 : Fin 1) j))
    (fun k j => V m c main_arg4 (ix2 k j)) (fun j => V m c main_v15 (ix2 (0 : Fin 1) j))
    (fun j => V m c main_v16 (ix2 (0 : Fin 1) j)) (fun j => V m c main_v17 (ix2 (0 : Fin 1) j))
    (fun k j => V m c main_arg8 (ix2 k j)) (fun j => V m c main_v18 (ix2 (0 : Fin 1) j)) (i 1)

theorem found_ix2 (c : Dev nD) (r : Fin 100000) (q : Fin 128) :
    found m c (ix2 r q) = rowOut (fun k => V m c main_arg0 (ix2 r k)) (fun k => V m c main_v13 (ix2 r k))
      (fun k j => V m c main_arg2 (ix2 k j)) (fun j => V m c main_v14 (ix2 (0 : Fin 1) j))
      (fun k j => V m c main_arg4 (ix2 k j)) (fun j => V m c main_v15 (ix2 (0 : Fin 1) j))
      (fun j => V m c main_v16 (ix2 (0 : Fin 1) j)) (fun j => V m c main_v17 (ix2 (0 : Fin 1) j))
      (fun k j => V m c main_arg8 (ix2 k j)) (fun j => V m c main_v18 (ix2 (0 : Fin 1) j)) q := rfl

/-- In terms of the arguments: `outArr` of them and of their neighbour sums. -/
theorem found_eq (c : Dev nD) :
    found m c = outArr (m ((c : Thread nD τ).loc main_arg0))
      (Cert.ReferenceIdeal.Read.val_main_v13 (F := Ideal) (m ((c : Thread nD τ).loc main_arg0)) (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  funext i
  obtain ⟨r, q, rfl⟩ : ∃ (r : Fin 100000) (q : Fin 128), i = ix2 r q := ⟨i 0, i 1, eq_ix2 i⟩
  rw [found_ix2, outArr_ix2, V_main_arg0, V_main_arg2, V_main_arg4, V_main_arg8, agg_found, b1_found, b2_found, gamma_found,
    beta_found, bres_found]
  simp only [shapeCast_a_1a_apply]

end Cert.KernelIdeal.WholeArray

end
-- ==== Proof.TileBlocks.lean ====
/-
  The tiles of the tiled program, as parts of the arrays.

  Grid point `t` (of fifty) reads and writes rows 2000·t … 2000·t + 1999: the two row windows (node features and
  neighbour sums) and the output window sit at block index (t, 0), and every weight, bias or scale window at block
  (0, 0), whole. A block's element `y` is the array's element (block index × block size + y), axis by axis; so a row
  window's block at point `t` reads the array 2000·t rows further down, and the other windows' blocks read their arrays
  in place. The index maps are decided once over the fifty points.
-/
import proofs.«133539_j6476810682403_1_alg».proof.Proof.Gen.KernelIdeal.Frame
import Idealize.ShloMosaic.Lib.Pipeline.Value
import Idealize.ShloMosaic.Lib.ValueIdx

noncomputable section

open scoped BigOperators

namespace Cert.KernelIdeal.WholeArray

open Cert.KernelIdeal Cert.KernelIdeal.Gen Idealize.ShloMosaic Idealize.ShloMosaic.TcCoe
  Idealize.SL.Sem Idealize.ShloMosaic.ValueIdx
open Idealize.ShloMosaic.Pipeline (Dat)

variable (m : (ℓ : Loc nD τ sig) → Buf (Elt Ideal) ℓ) (ρ : Dev nD → PrngReg)

/-! ## The blocks -/

theorem hz : (![0, 0] : Fin 2 → Nat) = fun _ => 0 := funext fun a => by fin_cases a <;> rfl

/-- The printed index maps, decided over the fifty points: the row windows and the output window sit at block (t, 0),
    every other window at block (0, 0). -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- A point's index is below fifty. -/
theorem point_lt (t : Fin cfg0.N) : t.val < 50 := by
  have h : t.val < cfg0.N := t.isLt
  have h0 : cfg0.N = 50 := N_0
  omega

/-- Element `y` of a row window's block at point `t` is the array's element 2000·t rows further down. -/
theorem x_block (c : Dev nD) (t : Fin cfg0.N) (y : S2000x128.Idx) (i : S100000x128.Idx)
    (h0 : (i 0).val = t.val * 2000 + (y 0).val) (h1 : (i 1).val = (y 1).val) :
    (iblk m c 0 t : Vec Ideal S2000x128 .f32) y = V m c main_arg0 i := by
  obtain ⟨-, -, e0, e1, -, -, -, -, -, -, -, -, -, -, -, -, -, -, -, -, -, -⟩ := idx_facts t
  unfold iblk
  rw [View.read_apply]
  generalize V m c = found_at
  rw [cast_eq]
  refine congrArg (found_at main_arg0) (funext fun a => Fin.ext ?_)
  match a with
  | ⟨0, _⟩ => show win0_0.index t 0 * 2000 + 1 * (y 0).val = (i 0).val; omega
  | ⟨1, _⟩ => show win0_0.index t 1 * 128 + 1 * (y 1).val = (i 1).val; omega
theorem agg_block (c : Dev nD) (t : Fin cfg0.N) (y : S2000x128.Idx) (i : S100000x128.Idx)
    (h0 : (i 0).val = t.val * 2000 + (y 0).val) (h1 : (i 1).val = (y 1).val) :
    (iblk m c 1 t : Vec Ideal S2000x128 .f32) y = V m c main_v13 i := by
  obtain ⟨-, -, -, -, e0, e1, -, -, -, -, -, -, -, -, -, -, -, -, -, -, -, -⟩ := idx_facts t
  unfold iblk
  rw [View.read_apply]
  generalize V m c = found_at
  rw [cast_eq]
  refine congrArg (found_at main_v13) (funext fun a => Fin.ext ?_)
  match a with
  | ⟨0, _⟩ => show win0_1.index t 0 * 2000 + 1 * (y 0).val = (i 0).val; omega
  | ⟨1, _⟩ => show win0_1.index t 1 * 128 + 1 * (y 1).val = (i 1).val; omega
/-- A weight window's block is the whole weight array, at every point. -/
theorem w1_block (c : Dev nD) (t : Fin cfg0.N) (y : S128x128.Idx) :
    (iblk m c 2 t : Vec Ideal S128x128 .f32) y = V m c main_arg2 y := by
  obtain ⟨-, -, -, -, -, -, e0, e1, -, -, -, -, -, -, -, -, -, -, -, -, -, -⟩ := idx_facts t
  unfold iblk
  rw [View.read_apply]
  generalize V m c = found_at
  rw [cast_eq]
  refine congrArg (found_at main_arg2) (funext fun a => Fin.ext ?_)
  match a with
  | ⟨0, _⟩ => show win0_2.index t 0 * 128 + 1 * (y 0).val = (y 0).val; omega
  | ⟨1, _⟩ => show win0_2.index t 1 * 128 + 1 * (y 1).val = (y 1).val; omega
theorem w2_block (c : Dev nD) (t : Fin cfg0.N) (y : S128x128.Idx) :
    (iblk m c 4 t : Vec Ideal S128x128 .f32) y = V m c main_arg4 y := by
  obtain ⟨-, -, -, -, -, -, -, -, -, -, e0, e1, -, -, -, -, -, -, -, -, -, -⟩ := idx_facts t
  unfold iblk
  rw [View.read_apply]
  generalize V m c = found_at
  rw [cast_eq]
  refine congrArg (found_at main_arg4) (funext fun a => Fin.ext ?_)
  match a with
  | ⟨0, _⟩ => show win0_4.index t 0 * 128 + 1 * (y 0).val = (y 0).val; omega
  | ⟨1, _⟩ => show win0_4.index t 1 * 128 + 1 * (y 1).val = (y 1).val; omega
theorem wres_block (c : Dev nD) (t : Fin cfg0.N) (y : S128x128.Idx) :
    (iblk m c 8 t : Vec Ideal S128x128 .f32) y = V m c main_arg8 y := by
  obtain ⟨-, -, -, -, -, -, -, -, -, -, -, -, -, -, -, -, -, -, e0, e1, -, -⟩ := idx_facts t
  unfold iblk
  rw [View.read_apply]
  generalize V m c = found_at
  rw [cast_eq]
  refine congrArg (found_at main_arg8) (funext fun a => Fin.ext ?_)
  match a with
  | ⟨0, _⟩ => show win0_8.index t 0 * 128 + 1 * (y 0).val = (y 0).val; omega
  | ⟨1, _⟩ => show win0_8.index t 1 * 128 + 1 * (y 1).val = (y 1).val; omega
/-- A [1, 128] window's block is the whole [1, 128] array, at every point. -/
theorem b1_block (c : Dev nD) (t : Fin cfg0.N) (y : S1x128.Idx) :
    (iblk m c 3 t : Vec Ideal S1x128 .f32) y = V m c main_v14 y := by
  obtain ⟨-, -, -, -, -, -, -, -, e0, e1, -, -, -, -, -, -, -, -, -, -, -, -⟩ := idx_facts t
  unfold iblk
  rw [View.read_apply]
  generalize V m c = found_at
  rw [cast_eq]
  refine congrArg (found_at main_v14) (funext fun a => Fin.ext ?_)
  match a with
  | ⟨0, _⟩ => show win0_3.index t 0 * 1 + 1 * (y 0).val = (y 0).val; omega
  | ⟨1, _⟩ => show win0_3.index t 1 * 128 + 1 * (y 1).val = (y 1).val; omega
theorem b2_block (c : Dev nD) (t : Fin cfg0.N) (y : S1x128.Idx) :
    (iblk m c 5 t : Vec Ideal S1x128 .f32) y = V m c main_v15 y := by
  obtain ⟨-, -, -, -, -, -, -, -, -, -, -, -, e0, e1, -, -, -, -, -, -, -, -⟩ := idx_facts t
  unfold iblk
  rw [View.read_apply]
  generalize V m c = found_at
  rw [cast_eq]
  refine congrArg (found_at main_v15) (funext fun a => Fin.ext ?_)
  match a with
  | ⟨0, _⟩ => show win0_5.index t 0 * 1 + 1 * (y 0).val = (y 0).val; omega
  | ⟨1, _⟩ => show win0_5.index t 1 * 128 + 1 * (y 1).val = (y 1).val; omega
theorem gamma_block (c : Dev nD) (t : Fin cfg0.N) (y : S1x128.Idx) :
    (iblk m c 6 t : Vec Ideal S1x128 .f32) y = V m c main_v16 y := by
  obtain ⟨-, -, -, -, -, -, -, -, -, -, -, -, -, -, e0, e1, -, -, -, -, -, -⟩ := idx_facts t
  unfold iblk
  rw [View.read_apply]
  generalize V m c = found_at
  rw [cast_eq]
  refine congrArg (found_at main_v16) (funext fun a => Fin.ext ?_)
  match a with
  | ⟨0, _⟩ => show win0_6.index t 0 * 1 + 1 * (y 0).val = (y 0).val; omega
  | ⟨1, _⟩ => show win0_6.index t 1 * 128 + 1 * (y 1).val = (y 1).val; omega
theorem beta_block (c : Dev nD) (t : Fin cfg0.N) (y : S1x128.Idx) :
    (iblk m c 7 t : Vec Ideal S1x128 .f32) y = V m c main_v17 y := by
  obtain ⟨-, -, -, -, -, -, -, -, -, -, -, -, -, -, -, -, e0, e1, -, -, -, -⟩ := idx_facts t
  unfold iblk
  rw [View.read_apply]
  generalize V m c = found_at
  rw [cast_eq]
  refine congrArg (found_at main_v17) (funext fun a => Fin.ext ?_)
  match a with
  | ⟨0, _⟩ => show win0_7.index t 0 * 1 + 1 * (y 0).val = (y 0).val; omega
  | ⟨1, _⟩ => show win0_7.index t 1 * 128 + 1 * (y 1).val = (y 1).val; omega
theorem bres_block (c : Dev nD) (t : Fin cfg0.N) (y : S1x128.Idx) :
    (iblk m c 9 t : Vec Ideal S1x128 .f32) y = V m c main_v18 y := by
  obtain ⟨-, -, -, -, -, -, -, -, -, -, -, -, -, -, -, -, -, -, -, -, e0, e1⟩ := idx_facts t
  unfold iblk
  rw [View.read_apply]
  generalize V m c = found_at
  rw [cast_eq]
  refine congrArg (found_at main_v18) (funext fun a => Fin.ext ?_)
  match a with
  | ⟨0, _⟩ => show win0_9.index t 0 * 1 + 1 * (y 0).val = (y 0).val; omega
  | ⟨1, _⟩ => show win0_9.index t 1 * 128 + 1 * (y 1).val = (y 1).val; omega

end Cert.KernelIdeal.WholeArray

end
-- ==== Proof.TileCover.lean ====
/-
  From tiles to the whole array.

  The tiled body's stored value at element (p, q) of tile `t` is the row function of row `p` of the tiles, and the tiles
  are rows 2000·t … of the arrays the region finds; so what point `t` writes back is block `t` of the one whole-array
  function `found`. The fifty blocks tile the 100000 rows — row `r` lies in block r / 2000 — hence the output array after
  the run is `found`, which in terms of the arguments is `GinRow.outArr` of them and of their neighbour sums.
-/
import proofs.«133539_j6476810682403_1_alg».proof.Proof.Gen.KernelIdeal.Value
import proofs.«133539_j6476810682403_1_alg».proof.Proof.TileRow
import proofs.«133539_j6476810682403_1_alg».proof.Proof.HostFound
import proofs.«133539_j6476810682403_1_alg».proof.Proof.TileBlocks

noncomputable section

open scoped BigOperators

namespace Cert.KernelIdeal.WholeArray

open Cert.KernelIdeal Cert.KernelIdeal.Gen Cert.KernelIdeal.TileRow Idealize.ShloMosaic Idealize.ShloMosaic.TcCoe
  Idealize.SL.Sem Idealize.ShloMosaic.ValueIdx GinRow
open Idealize.ShloMosaic.Pipeline (Dat)

variable (m : (ℓ : Loc nD τ sig) → Buf (Elt Ideal) ℓ) (ρ : Dev nD → PrngReg)

/-- The ten input blocks at a point, each named at its literal tile type. -/
abbrev xT (c : Dev nD) (t : Fin cfg0.N) : Vec Ideal S2000x128 .f32 := iblk m c 0 t
abbrev aT (c : Dev nD) (t : Fin cfg0.N) : Vec Ideal S2000x128 .f32 := iblk m c 1 t
abbrev w1T (c : Dev nD) (t : Fin cfg0.N) : Vec Ideal S128x128 .f32 := iblk m c 2 t
abbrev b1T (c : Dev nD) (t : Fin cfg0.N) : Vec Ideal S1x128 .f32 := iblk m c 3 t
abbrev w2T (c : Dev nD) (t : Fin cfg0.N) : Vec Ideal S128x128 .f32 := iblk m c 4 t
abbrev b2T (c : Dev nD) (t : Fin cfg0.N) : Vec Ideal S1x128 .f32 := iblk m c 5 t
abbrev gT (c : Dev nD) (t : Fin cfg0.N) : Vec Ideal S1x128 .f32 := iblk m c 6 t
abbrev beT (c : Dev nD) (t : Fin cfg0.N) : Vec Ideal S1x128 .f32 := iblk m c 7 t
abbrev wrT (c : Dev nD) (t : Fin cfg0.N) : Vec Ideal S128x128 .f32 := iblk m c 8 t
abbrev brT (c : Dev nD) (t : Fin cfg0.N) : Vec Ideal S1x128 .f32 := iblk m c 9 t

/-- The body's stored value at element `y` of the tile is `found` at the array index 2000·t rows further down. -/
theorem tile_point (c : Dev nD) (t : Fin cfg0.N) (y : S2000x128.Idx) (i : S100000x128.Idx)
    (h0 : (i 0).val = t.val * 2000 + (y 0).val) (h1 : (i 1).val = (y 1).val) :
    k0_pay1 (F := Ideal) (xT m c t)
      (k0_pay4 (xT m c t) (aT m c t) (w1T m c t) (b1T m c t) (w2T m c t) (b2T m c t))
      (k0_pay5 (xT m c t) (aT m c t) (w1T m c t) (b1T m c t) (w2T m c t) (b2T m c t))
      (gT m c t) (beT m c t) (wrT m c t) (brT m c t) y = found m c i := by
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext h1
  have hr : r.val = t.val * 2000 + p.val := h0
  rw [store_tile, found_ix2]
  have e0 : trow (xT m c t) p = fun k => V m c main_arg0 (ix2 r k) :=
    funext fun k => x_block m c t (ix2 p k) (ix2 r k) hr rfl
  have e1 : trow (aT m c t) p = fun k => V m c main_v13 (ix2 r k) :=
    funext fun k => agg_block m c t (ix2 p k) (ix2 r k) hr rfl
  have e2 : tmat (w1T m c t) = fun k j => V m c main_arg2 (ix2 k j) :=
    funext fun k => funext fun j => w1_block m c t (ix2 k j)
  have e3 : tvec (b1T m c t) = fun j => V m c main_v14 (ix2 (0 : Fin 1) j) :=
    funext fun j => b1_block m c t (ix2 (0 : Fin 1) j)
  have e4 : tmat (w2T m c t) = fun k j => V m c main_arg4 (ix2 k j) :=
    funext fun k => funext fun j => w2_block m c t (ix2 k j)
  have e5 : tvec (b2T m c t) = fun j => V m c main_v15 (ix2 (0 : Fin 1) j) :=
    funext fun j => b2_block m c t (ix2 (0 : Fin 1) j)
  have e6 : tvec (gT m c t) = fun j => V m c main_v16 (ix2 (0 : Fin 1) j) :=
    funext fun j => gamma_block m c t (ix2 (0 : Fin 1) j)
  have e7 : tvec (beT m c t) = fun j => V m c main_v17 (ix2 (0 : Fin 1) j) :=
    funext fun j => beta_block m c t (ix2 (0 : Fin 1) j)
  have e8 : tmat (wrT m c t) = fun k j => V m c main_arg8 (ix2 k j) :=
    funext fun k => funext fun j => wres_block m c t (ix2 k j)
  have e9 : tvec (brT m c t) = fun j => V m c main_v18 (ix2 (0 : Fin 1) j) :=
    funext fun j => bres_block m c t (ix2 (0 : Fin 1) j)
  rw [e0, e1, e2, e3, e4, e5, e6, e7, e8, e9]

/-- WHAT POINT `t` WRITES BACK is block `t` of `found`. -/
theorem flushed_eq (c : Dev nD) (t : Fin cfg0.N) :
    (dats m 0 c).flushed 10 t = ((cfg0.win 10).blk t).view.read (Elt Ideal) (found m c) := by
  rw [Cert.KernelIdeal.Value.flushed10]
  unfold out0_10
  rw [View.canon_unit_zero hz]
  simp only [View.ld_unit_zero (S := S2000x128) hz, View.ld_unit_zero (S := S128x128) hz, View.ld_unit_zero (S := S1x128) hz]
  obtain ⟨o0, o1, -⟩ := idx_facts t
  funext y
  refine tile_point m c t y (((cfg0.win 10).blk t).view.emb y) ?_ ?_
  · show win0_10.index t 0 * 2000 + 1 * (y 0).val = t.val * 2000 + (y 0).val; omega
  · show win0_10.index t 1 * 128 + 1 * (y 1).val = (y 1).val; omega

/-- An index of the array is in point `t`'s block iff each coordinate is in the block's range on its axis. -/
theorem mem_blk (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v19).slice (win0_10.rect t)).set ↔ _
  rw [View.set_slice_whole, Rect.mem_set_unit]
  exact Iff.rfl

/-- Every row block is some point's. -/
theorem idx_onto : ∀ b : Fin 50, ∃ t : Fin cfg0.N, win0_10.index t = ![b.val, 0] :=
  (by decide +kernel : ∀ b : Fin 50, ∃ t : Fin grid0.N, win0_10.index t = ![b.val, 0])

/-- The fifty blocks tile the array: row `r` lies in block r / 2000. -/
theorem cover (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  obtain ⟨t, ht⟩ := idx_onto ⟨(i 0).val / 2000, by omega⟩
  have q0 : win0_10.index t (0 : Fin 2) = (i 0).val / 2000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 2000 ≤ (i 0).val ∧ (i 0).val < win0_10.index t (0 : Fin 2) * 2000 + 2000; omega
  | ⟨1, _⟩ => show win0_10.index t (1 : Fin 2) * 128 ≤ (i 1).val ∧ (i 1).val < win0_10.index t (1 : Fin 2) * 128 + 128; omega

/-- The output array after the run, as a function of the arguments. -/
theorem final (c : Dev nD) :
    (dats m 0 c).arrAt 10 cfg0.N = outArr (m ((c : Thread nD τ).loc main_arg0))
      (Cert.ReferenceIdeal.Read.val_main_v13 (F := Ideal) (m ((c : Thread nD τ).loc main_arg0)) (m ((c : Thread nD τ).loc main_arg1)))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) :=
  ((dats m 0 c).arrAt_eq_of_cover 10 (found m c) (fun t _ => flushed_eq m c t) cover).trans (found_eq m c)

/-- The tiled program's run, with the output array named as that function. -/
theorem run : θ_run defs (onTc (τ := τ) (main (F := Ideal))) ⟨m, fun _ => 0, ρ⟩ fun r => ∀ c : Dev nD,
      r.2.mem ((c : Thread nD τ).loc main_v19) = outArr (m ((c : Thread nD τ).loc main_arg0))
        (Cert.ReferenceIdeal.Read.val_main_v13 (F := Ideal) (m ((c : Thread nD τ).loc main_arg0)) (m ((c : Thread nD τ).loc main_arg1)))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.KernelIdeal.WholeArray

end
-- ==== Proof.lean ====
/- The proof of `Cert.Claim`: a graph-isomorphism block — neighbour aggregation, a two-layer perceptron with a
   rectifier, layer normalisation over the 128 features and a residual linear layer — computed in tiles of 2000 rows,
   against the same block computed on the whole [100000, 128] array.

   Both programs begin with the same gather of source rows and scatter-add onto target rows, on the same arguments, so
   the neighbour sums are one term on both sides and are never opened. After them every operation acts on a node's
   row alone: with the row function `GinRow.rowOut` (Proof/RowSpec.lean) the whole-array program's result is that
   function of row r at every (r, j) (Proof/RefRow.lean), the tiled body's stored value is that function of row p of
   its tiles at every (p, q) (Proof/TileRow.lean), and tile t holds rows 2000·t … 2000·t + 1999, the fifty tiles
   covering the array (Proof/TileCover.lean). On the extended reals the two programs' spellings differ only by a
   product with the literal 1.0, by sums started from the literal 0.0, by matrix products onto a zero accumulator, and
   by changes of float format, all of which are identities there; no law that fails at an infinity is used, so the
   inputs' finiteness is not needed for the values. The idealized tiled program is the printed one read at the
   extended reals (no rewrite), so that conjunct is trivial; the three frames are the generated ones. -/
import proofs.«133539_j6476810682403_1_alg».proof.Defs
import proofs.«133539_j6476810682403_1_alg».proof.Proof.Gen.Kernel
import proofs.«133539_j6476810682403_1_alg».proof.Proof.Gen.Kernel.Skeleton
import proofs.«133539_j6476810682403_1_alg».proof.Proof.Gen.Kernel.Launch
import proofs.«133539_j6476810682403_1_alg».proof.Proof.Gen.Kernel.Points
import proofs.«133539_j6476810682403_1_alg».proof.Proof.Gen.Kernel.Frame
import proofs.«133539_j6476810682403_1_alg».proof.Proof.Gen.KernelIdeal
import proofs.«133539_j6476810682403_1_alg».proof.Proof.Gen.KernelIdeal.Skeleton
import proofs.«133539_j6476810682403_1_alg».proof.Proof.Gen.KernelIdeal.Launch
import proofs.«133539_j6476810682403_1_alg».proof.Proof.Gen.KernelIdeal.Points
import proofs.«133539_j6476810682403_1_alg».proof.Proof.Gen.KernelIdeal.Frame
import proofs.«133539_j6476810682403_1_alg».proof.Proof.Gen.ReferenceIdeal
import proofs.«133539_j6476810682403_1_alg».proof.Proof.Gen.Pre_finite_inputs
import proofs.«133539_j6476810682403_1_alg».proof.Proof.Gen.KernelIdeal.Value
import proofs.«133539_j6476810682403_1_alg».proof.Proof.Gen.ReferenceIdeal.Run
import proofs.«133539_j6476810682403_1_alg».proof.Proof.Gen.ReferenceIdeal.Read
import proofs.«133539_j6476810682403_1_alg».proof.Proof.RefRow
import proofs.«133539_j6476810682403_1_alg».proof.Proof.TileCover
import Idealize.ShloMosaic.Adequacy
import Idealize.ShloMosaic.Init

noncomputable section

namespace Cert.Proof

open Idealize.ShloMosaic Idealize.SL.Sem

/-- The tiled program as printed runs and leaves its arguments as they were. -/
theorem frame_tiled : Cert.frame_Kernel := fun m ρ _ => Cert.Kernel.Gen.frame m ρ

/-- So does the tiled program read at the extended reals. -/
theorem frame_tiled_ideal : Cert.frame_KernelIdeal := fun m ρ _ => Cert.KernelIdeal.Gen.frame m ρ

/-- The whole-array program runs and leaves its arguments as they were: its run, with the result dropped. -/
theorem frame_whole : Cert.frame_ReferenceIdeal := fun m ρ _ =>
  (θ_run Cert.ReferenceIdeal.defs _ _).mono (fun _ h c => (h c).2) (Cert.ReferenceIdeal.Value.run (F := Ideal) m ρ)

/-- No operation of the tiled program was rewritten for the extended reals. -/
theorem preserves : Cert.preserves_Kernel_KernelIdeal := trivial

/-- From memories agreeing on the ten arguments both programs end with the row function of the arguments and of their
    neighbour sums at every index. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v54_eq, Cert.ReferenceIdeal.RowRead.out_eq]
  obtain ⟨h0, h1, h2, h3, h4, h5, h6, h7, h8, h9⟩ := hagree c
  rw [h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_tiled, frame_tiled_ideal, frame_whole, preserves, algebraic⟩

end Cert.Proof

end
